-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn_part1 {F : FTy → Type} [FloatOps F] (main_v13 : IVec S_ 1) (main_v16 : IVec S32x256x64x64 1) : IVec S_ 1 :=
  let main_c_5 : IVec S_ 1 := constantI S_ 1 1#1
  let main_v17 : IVec S_ 1 := (fun x v => Host.reduce IntOp.andi x v reducesTo_S32x256x64x64_S_d0_1_2_3 h_S_) main_v16 main_c_5
  let main_v18 : IVec S_ 1 := andi main_v13 main_v17
  main_v18

def fn {F : FTy → Type} [FloatOps F] (main_arg0 : FVec F S32x256x64x64 .f32) (main_arg1 : FVec F S32x256x64x64 .f32) (main_arg2 : FVec F S32x256x64x64 .f32) (main_arg3 : FVec F S32x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256x64x64 .f32 := Host.absf main_arg1
  let main_cst_0 : FVec F S_ .f32 := constant S_ .f32 0x7F800000#32
  let main_v5 : FVec F S32x256x64x64 .f32 := broadcastInDim S32x256x64x64 ![] bcast_S_S32x256x64x64 main_cst_0
  let main_v6 : IVec S32x256x64x64 1 := cmpf .olt main_v4 main_v5
  let main_c_1 : IVec S_ 1 := constantI S_ 1 1#1
  let main_v7 : IVec S_ 1 := (fun x v => Host.reduce IntOp.andi x v reducesTo_S32x256x64x64_S_d0_1_2_3 h_S_) main_v6 main_c_1
  let main_v8 : IVec S_ 1 := andi main_v3 main_v7
  let main_v9 : FVec F S32x256x64x64 .f32 := Host.absf main_arg2
  let main_cst_2 : FVec F S_ .f32 := constant S_ .f32 0x7F800000#32
  let main_v10 : FVec F S32x256x64x64 .f32 := broadcastInDim S32x256x64x64 ![] bcast_S_S32x256x64x64 main_cst_2
  let main_v11 : IVec S32x256x64x64 1 := cmpf .olt main_v9 main_v10
  let main_c_3 : IVec S_ 1 := constantI S_ 1 1#1
  let main_v12 : IVec S_ 1 := (fun x v => Host.reduce IntOp.andi x v reducesTo_S32x256x64x64_S_d0_1_2_3 h_S_) main_v11 main_c_3
  let main_v13 : IVec S_ 1 := andi main_v8 main_v12
  let main_v14 : FVec F S32x256x64x64 .f32 := Host.absf main_arg3
  let main_cst_4 : FVec F S_ .f32 := constant S_ .f32 0x7F800000#32
  let main_v15 : FVec F S32x256x64x64 .f32 := broadcastInDim S32x256x64x64 ![] bcast_S_S32x256x64x64 main_cst_4
  let main_v16 : IVec S32x256x64x64 1 := cmpf .olt main_v14 main_v15
  fn_part1 (F := F) main_v13 main_v16
-- ==== Kernel.lean ====
abbrev S32x256x64x64 : Shape := ⟨4, ![32, 256, 64, 64]⟩
abbrev S8192x4096 : Shape := ⟨2, ![8192, 4096]⟩
abbrev S128x4096 : Shape := ⟨2, ![128, 4096]⟩

abbrev nBuf : Space → Nat
  | .hbm => 10
  | .vmem => 10
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x256x64x64, .f32⟩
  | .hbm, ⟨3, _⟩ => ⟨S32x256x64x64, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S32x256x64x64, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x64x64_S8192x4096 : S32x256x64x64.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S8192x4096_S32x256x64x64 : S8192x4096.ShapeCasts S32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S8192x4096.size a
  hwx0_2 : ∀ i : grid0.Coords, EltTy.bits .f32 = 32 ∨ (Rect.block (s := S8192x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)

variable [Facts₀]

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩

abbrev nBuf : Space → Nat
  | .hbm => 7
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256x64x64, .f32⟩
  | .hbm, ⟨2, _⟩ => ⟨S32x256x64x64, .f32⟩
  | .hbm, ⟨3, _⟩ => ⟨S32x256x64x64, .f32⟩
  | .hbm, ⟨4, _⟩ => ⟨S32x256x64x64, .f32⟩
  | .hbm, ⟨5, _⟩ => ⟨S32x256x64x64, .f32⟩
  | .hbm, ⟨6, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where

variable [Facts₀]

class Facts : Prop extends Facts₀ where

variable [Facts]
-- ==== Proof.MaxSpec.lean ====
/-
  The mathematics of the certificate, free of any program: the greatest of four arrays taken entry by entry,
  grouped as max (max a b) (max c d), and the one law the proof needs of it. A reshape re-reads an array's entries
  in row-major order under another shape; an entrywise operation does not care under which shape its entries are
  listed. So taking the maximum of four reshaped arrays and reshaping the result back is the maximum of the four
  arrays themselves: reshaping commutes with the entrywise maximum, and a reshape there and back is the identity.
  Nothing here needs a property of the order or of the float format: the statements hold at every instance.
-/
import Idealize.ShloMosaic.PureOps
import Idealize.ShloMosaic.Lib.Pipeline.Value

noncomputable section

namespace Cert.MaxSpec

open Idealize.ShloMosaic

variable {F : FTy → Type} [FloatOps F]

/-- The entrywise greatest of four arrays of one shape: at every index max (max (a i) (b i)) (max (c i) (d i)). -/
def max4 {s : Shape} {φ : FTy} (a b c d : FVec F s φ) : FVec F s φ :=
  maximumf (maximumf a b) (maximumf c d)

/-- At an index it is the maximum of the four entries there. -/
theorem max4_apply {s : Shape} {φ : FTy} (a b c d : FVec F s φ) (i : s.Idx) :
    max4 a b c d i = FloatOps.maximumf (FloatOps.maximumf (a i) (b i)) (FloatOps.maximumf (c i) (d i)) := rfl

/-- A reshape commutes with the entrywise maximum of four: both sides read, at an index of the new shape, the four
    entries at the index of the old shape with the same row-major position. -/
theorem shapeCast_max4 {s t : Shape} {φ : FTy} (a b c d : FVec F s φ) (h : s.ShapeCasts t) :
    shapeCast t (max4 a b c d) h = max4 (shapeCast t a h) (shapeCast t b h) (shapeCast t c h) (shapeCast t d h) := rfl

/-- Reshape the four arrays, take the entrywise maximum, reshape back: the entrywise maximum of the four arrays. -/
theorem shapeCast_max4_shapeCast {s t : Shape} {φ : FTy} (a b c d : FVec F s φ) (h : s.ShapeCasts t) (h' : t.ShapeCasts s) :
    shapeCast s (max4 (shapeCast t a h) (shapeCast t b h) (shapeCast t c h) (shapeCast t d h)) h' = max4 a b c d := by
  rw [shapeCast_max4, shapeCast_shapeCast, shapeCast_shapeCast, shapeCast_shapeCast, shapeCast_shapeCast]

end Cert.MaxSpec

end
-- ==== Proof.KernelValue.lean ====
/-
  What the kernel program computes, as one function of its four arguments.

  The program reshapes each argument from [32, 256, 64, 64] to the matrix [8192, 4096] (row r = 256 b + ch, column
  64 y + x: the same entries in row-major order), runs one grid of 64 points over it, and reshapes the result matrix
  back. Point t fetches rows 128 t .. 128 t + 127 (all 4096 columns) of each of the four matrices, takes the entrywise
  maximum of the four blocks grouped as max (max a b) (max c d), and writes the block back to the same rows of the
  result matrix. All five windows move together (block index (t, 0)), so the block a point writes is that block of ONE
  matrix: the entrywise maximum of the four reshaped arguments. The 64 row blocks tile the 8192 rows (row r lies in
  block r / 128), so after the run the result matrix IS that maximum; reshaped back it is the entrywise maximum of the
  four arguments themselves (a reshape commutes with an entrywise operation, and there and back it is the identity).
-/
import proofs.«112459_j14259291423428_1_alg».proof.Defs
import proofs.«112459_j14259291423428_1_alg».proof.Proof.Gen.KernelIdeal.Frame
import proofs.«112459_j14259291423428_1_alg».proof.Proof.MaxSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.MaxValue

open Cert.KernelIdeal Cert.KernelIdeal.Gen Cert.MaxSpec

variable {F : FTy → Type} [FloatOps F]
variable (m : (ℓ : Loc nD τ sig) → Buf (Elt F) ℓ) (ρ : Dev nD → PrngReg)

/-! ## The body: the entrywise maximum of its four blocks -/

theorem hz : (![0, 0] : Fin 2 → Nat) = fun _ => 0 := funext fun a => by fin_cases a <;> rfl

/-- The value the body stores is the entrywise maximum of the four loaded blocks (its casts are to the blocks' own shape). -/
theorem pay_eq (x0 x1 x2 x3 : Vec F S128x4096 .f32) :
    k0_pay1 x0 x1 x2 x3 = max4 (s := S128x4096) (φ := .f32) x0 x1 x2 x3 := by
  unfold k0_pay1 max4
  simp only [shapeCast_self]

/-! ## The matrix the region computes -/

/-- The entrywise maximum of the four matrices the region finds (the reshaped arguments). -/
abbrev target (c : Dev nD) : FVec F S8192x4096 .f32 :=
  max4 (s := S8192x4096) (φ := .f32) (V m c main_v0) (V m c main_v1) (V m c main_v2) (V m c main_v3)

/-- The five index maps agree at every point: block (t, 0), rows 128 t onward, all columns. -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2) :=
  (by decide +kernel : ∀ t : Fin grid0.N, _)

/-- Every one of the 64 row blocks is some point's. -/
theorem idx_onto : ∀ q : Fin 64, ∃ t : Fin cfg0.N, win0_4.index t = ![q.val, 0] :=
  (by decide +kernel : ∀ q : Fin 64, ∃ t : Fin grid0.N, win0_4.index t = ![q.val, 0])

/-- What point t writes back is block t of the target matrix: each input block is its matrix read through the
    output's own rectangle, and the maximum is taken entry by entry. -/
theorem flushed_eq (c : Dev nD) (t : Fin cfg0.N) :
    (dats m 0 c).flushed 4 t = ((cfg0.win 4).blk t).view.read (Elt F) (target m c) := by
  show (cfg0.win 4).cut (grid0.coords t) ((dats m 0 c).after 4 t) = _
  rw [after0_4]
  unfold out0_4
  rw [View.canon_unit_zero hz]
  simp only [View.ld_unit_zero (S := S128x4096) hz]
  rw [pay_eq]
  obtain ⟨e00, e01, e10, e11, e20, e21, e30, e31⟩ := idx_facts t
  funext j
  show FloatOps.maximumf
        (FloatOps.maximumf (V m c main_v0 (((cfg0.win 0).blk t).view.emb j)) (V m c main_v1 (((cfg0.win 1).blk t).view.emb j)))
        (FloatOps.maximumf (V m c main_v2 (((cfg0.win 2).blk t).view.emb j)) (V m c main_v3 (((cfg0.win 3).blk t).view.emb j)))
      = FloatOps.maximumf
        (FloatOps.maximumf (V m c main_v0 (((cfg0.win 4).blk t).view.emb j)) (V m c main_v1 (((cfg0.win 4).blk t).view.emb j)))
        (FloatOps.maximumf (V m c main_v2 (((cfg0.win 4).blk t).view.emb j)) (V m c main_v3 (((cfg0.win 4).blk t).view.emb j)))
  have h0 : ((cfg0.win 0).blk t).view.emb j = ((cfg0.win 4).blk t).view.emb j := by
    funext a; apply Fin.ext
    match a with
    | ⟨0, _⟩ => show win0_0.index t (0 : Fin 2) * 128 + 1 * (j 0).val = win0_4.index t (0 : Fin 2) * 128 + 1 * (j 0).val; omega
    | ⟨1, _⟩ => show win0_0.index t (1 : Fin 2) * 4096 + 1 * (j 1).val = win0_4.index t (1 : Fin 2) * 4096 + 1 * (j 1).val; omega
  have h1 : ((cfg0.win 1).blk t).view.emb j = ((cfg0.win 4).blk t).view.emb j := by
    funext a; apply Fin.ext
    match a with
    | ⟨0, _⟩ => show win0_1.index t (0 : Fin 2) * 128 + 1 * (j 0).val = win0_4.index t (0 : Fin 2) * 128 + 1 * (j 0).val; omega
    | ⟨1, _⟩ => show win0_1.index t (1 : Fin 2) * 4096 + 1 * (j 1).val = win0_4.index t (1 : Fin 2) * 4096 + 1 * (j 1).val; omega
  have h2 : ((cfg0.win 2).blk t).view.emb j = ((cfg0.win 4).blk t).view.emb j := by
    funext a; apply Fin.ext
    match a with
    | ⟨0, _⟩ => show win0_2.index t (0 : Fin 2) * 128 + 1 * (j 0).val = win0_4.index t (0 : Fin 2) * 128 + 1 * (j 0).val; omega
    | ⟨1, _⟩ => show win0_2.index t (1 : Fin 2) * 4096 + 1 * (j 1).val = win0_4.index t (1 : Fin 2) * 4096 + 1 * (j 1).val; omega
  have h3 : ((cfg0.win 3).blk t).view.emb j = ((cfg0.win 4).blk t).view.emb j := by
    funext a; apply Fin.ext
    match a with
    | ⟨0, _⟩ => show win0_3.index t (0 : Fin 2) * 128 + 1 * (j 0).val = win0_4.index t (0 : Fin 2) * 128 + 1 * (j 0).val; omega
    | ⟨1, _⟩ => show win0_3.index t (1 : Fin 2) * 4096 + 1 * (j 1).val = win0_4.index t (1 : Fin 2) * 4096 + 1 * (j 1).val; omega
  rw [h0, h1, h2, h3]

/-- An index of the result matrix lies in point t's block iff each coordinate lies in the block's range on its axis. -/
theorem mem_blk (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v4).slice (win0_4.rect t)).set ↔ _
  rw [View.set_slice_whole, Rect.mem_set_unit]
  exact Iff.rfl

/-- The row blocks tile the matrix: row r lies in block r / 128, and every block spans all columns. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 4096 ≤ (i 1).val ∧ (i 1).val < win0_4.index t (1 : Fin 2) * 4096 + 4096; omega

/-- After the region the result matrix is the entrywise maximum of the four matrices it found. -/
theorem final (c : Dev nD) : (dats m 0 c).arrAt 4 cfg0.N = target m c :=
  (dats m 0 c).arrAt_eq_of_cover 4 (target m c) (fun t _ => flushed_eq m c t) cover

end Cert.KernelIdeal.MaxValue

end
-- ==== Proof.KernelRun.lean ====
/-
  The kernel program's run, read as a value: its result array is the entrywise maximum of its four arguments.

  Before the region each argument is reshaped to a matrix, so the four matrices the region finds are the reshaped
  arguments. After the region one reshape turns the result matrix back into the result array. The region leaves the
  result matrix at the entrywise maximum of the four matrices; reshaping back, the result array is the entrywise
  maximum of the four arguments, because a reshape commutes with an entrywise operation and is undone by the reshape
  back. The arguments themselves are never written.
-/
import proofs.«112459_j14259291423428_1_alg».proof.Proof.KernelValue

set_option maxRecDepth 16384

noncomputable section

open Idealize.ShloMosaic Idealize.ShloMosaic.TcCoe Idealize.SL.Sem
open Idealize.ShloMosaic.Pipeline (Dat)

namespace Cert.KernelIdeal.MaxValue

open Cert.KernelIdeal Cert.KernelIdeal.Gen Cert.MaxSpec Idealize.ShloMosaic.StableHlo

variable {F : FTy → Type} [FloatOps F]
variable (m : (ℓ : Loc nD τ sig) → Buf (Elt F) ℓ) (ρ : Dev nD → PrngReg)

/-! ## The matrices the region finds are the reshaped arguments -/

theorem V_main_v0 (c : Dev nD) :
    (V m c main_v0 : FVec F S8192x4096 .f32)
      = shapeCast S8192x4096 (m ((c : Thread nD τ).loc main_arg0) : FVec F S32x256x64x64 .f32) shapeCasts_S32x256x64x64_S8192x4096 := by
  show StableHlo.after hostOps0 (fun b => m (c, b)) (Proc.devRef .tc main_v0) = _
  after_results
  rfl

theorem V_main_v1 (c : Dev nD) :
    (V m c main_v1 : FVec F S8192x4096 .f32)
      = shapeCast S8192x4096 (m ((c : Thread nD τ).loc main_arg1) : FVec F S32x256x64x64 .f32) shapeCasts_S32x256x64x64_S8192x4096 := by
  show StableHlo.after hostOps0 (fun b => m (c, b)) (Proc.devRef .tc main_v1) = _
  after_results
  rfl

theorem V_main_v2 (c : Dev nD) :
    (V m c main_v2 : FVec F S8192x4096 .f32)
      = shapeCast S8192x4096 (m ((c : Thread nD τ).loc main_arg2) : FVec F S32x256x64x64 .f32) shapeCasts_S32x256x64x64_S8192x4096 := by
  show StableHlo.after hostOps0 (fun b => m (c, b)) (Proc.devRef .tc main_v2) = _
  after_results
  rfl

theorem V_main_v3 (c : Dev nD) :
    (V m c main_v3 : FVec F S8192x4096 .f32)
      = shapeCast S8192x4096 (m ((c : Thread nD τ).loc main_arg3) : FVec F S32x256x64x64 .f32) shapeCasts_S32x256x64x64_S8192x4096 := by
  show StableHlo.after hostOps0 (fun b => m (c, b)) (Proc.devRef .tc main_v3) = _
  after_results
  rfl

/-! ## The result array after the reshape back -/

/-- The entrywise maximum of the four arguments as launched. -/
abbrev result (c : Dev nD) : FVec F S32x256x64x64 .f32 :=
  max4 (s := S32x256x64x64) (φ := .f32) (m ((c : Thread nD τ).loc main_arg0)) (m ((c : Thread nD τ).loc main_arg1))
    (m ((c : Thread nD τ).loc main_arg2)) (m ((c : Thread nD τ).loc main_arg3))

/-- The line after the region reshapes the result matrix, which the region left at the maximum of the reshaped
    arguments: the result array is the maximum of the arguments. -/
theorem tail_main_v5 (c : Dev nD) :
    Pipeline.afterTail₀ cfgs (dats m) 0 (V0 m) [hostOps1] c main_v5 = result m c := by
  unfold Pipeline.afterTail₀
  show StableHlo.after hostOps1 _ (Proc.devRef .tc main_v5) = _
  after_results
  show shapeCast S32x256x64x64 (Pipeline.withArrays (cfgs 0).spec c (V0 m c) (fun w => (dats m 0 c).arrAt w (cfgs 0).N) (Proc.devRef .tc main_v4)) shapeCasts_S8192x4096_S32x256x64x64 = _
  rw [show Pipeline.withArrays (cfgs 0).spec c (V0 m c) (fun w => (dats m 0 c).arrAt w (cfgs 0).N) (Proc.devRef .tc main_v4)
        = target m c from (Pipeline.withArrays_arr spec0 launch0.win.arr_inj c _ _ 4).trans (final m c)]
  unfold target
  rw [V_main_v0, V_main_v1, V_main_v2, V_main_v3]
  exact shapeCast_max4_shapeCast _ _ _ _ _ _

/-! ## The run -/

/-- Every weakly fair execution of the program terminates with the result array at the entrywise maximum of the four
    arguments and the arguments unchanged. -/
theorem run : θ_run defs (onTc (τ := τ) (main (F := F))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v5 (Pipeline.mem_restRefs_of main_v5 (by decide) (by decide))).trans (tail_main_v5 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.MaxValue

end
-- ==== Proof.Reference.lean ====
/-
  What the reference program computes: three entrywise maxima, max (max f1 f2) (max f3 f4), of its four arguments
  as launched. Its run, read back operation by operation, ends with the result array at exactly that term, which is
  the entrywise maximum of four grouped the same way as the kernel groups it; so no law of the order is needed to
  compare the two programs, only that they are the same function of the same arrays.
-/
import proofs.«112459_j14259291423428_1_alg».proof.Defs
import proofs.«112459_j14259291423428_1_alg».proof.Proof.Gen.ReferenceIdeal
import proofs.«112459_j14259291423428_1_alg».proof.Proof.Gen.ReferenceIdeal.Run
import proofs.«112459_j14259291423428_1_alg».proof.Proof.MaxSpec

noncomputable section

open Idealize.ShloMosaic Idealize.ShloMosaic.TcCoe Idealize.SL.Sem

namespace Cert.ReferenceIdeal.MaxValue

open Cert.ReferenceIdeal Cert.ReferenceIdeal.Gen Cert.MaxSpec

variable {F : FTy → Type} [FloatOps F]
variable (m : (ℓ : Loc nD τ sig) → Buf (Elt F) ℓ) (ρ : Dev nD → PrngReg)

/-- The entrywise maximum of the four arguments as launched. -/
abbrev result (c : Dev nD) : FVec F S32x256x64x64 .f32 :=
  max4 (s := S32x256x64x64) (φ := .f32) (m ((c : Thread nD τ).loc main_arg0)) (m ((c : Thread nD τ).loc main_arg1))
    (m ((c : Thread nD τ).loc main_arg2)) (m ((c : Thread nD τ).loc main_arg3))

/-- Every weakly fair execution of the reference terminates with the result array at the entrywise maximum of the four
    arguments and the arguments unchanged: the three maxima of its text are that maximum, term for term. -/
theorem run : θ_run defs (onTc (τ := τ) (main (F := F))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.ReferenceIdeal.MaxValue

end
-- ==== Proof.lean ====
/-
  The certificate: an entrywise maximum of four feature maps, computed by a kernel over row blocks of the maps
  reshaped to matrices, against max (max f1 f2) (max f3 f4) computed directly.

  Both programs compute the same function of the same four arrays, grouped the same way: at every index the result is
  max (max (f1 i) (f2 i)) (max (f3 i) (f4 i)). The kernel program reaches it through a reshape to [8192, 4096], 64 row
  blocks of 128 rows each handled independently, and a reshape back; since the blocks tile the matrix, every window
  moves with the output's, and a reshape only re-lists entries in row-major order, none of this changes which four
  entries meet at an index. No property of the order and no finiteness of the inputs is used: the two results are
  equal as functions of the arguments at every instance of the float operations, the extended reals among them. The
  idealization rewrote nothing, so the kernel is its own idealization; the three programs run without a fault and leave
  their arguments unwritten.
-/
import proofs.«112459_j14259291423428_1_alg».proof.Defs
import proofs.«112459_j14259291423428_1_alg».proof.Proof.Gen.Kernel
import proofs.«112459_j14259291423428_1_alg».proof.Proof.Gen.Kernel.Skeleton
import proofs.«112459_j14259291423428_1_alg».proof.Proof.Gen.Kernel.Launch
import proofs.«112459_j14259291423428_1_alg».proof.Proof.Gen.Kernel.Points
import proofs.«112459_j14259291423428_1_alg».proof.Proof.Gen.Kernel.Frame
import proofs.«112459_j14259291423428_1_alg».proof.Proof.Gen.KernelIdeal
import proofs.«112459_j14259291423428_1_alg».proof.Proof.Gen.KernelIdeal.Skeleton
import proofs.«112459_j14259291423428_1_alg».proof.Proof.Gen.KernelIdeal.Launch
import proofs.«112459_j14259291423428_1_alg».proof.Proof.Gen.KernelIdeal.Points
import proofs.«112459_j14259291423428_1_alg».proof.Proof.Gen.KernelIdeal.Frame
import proofs.«112459_j14259291423428_1_alg».proof.Proof.Gen.ReferenceIdeal
import proofs.«112459_j14259291423428_1_alg».proof.Proof.Gen.Pre_finite_inputs
import proofs.«112459_j14259291423428_1_alg».proof.Proof.MaxSpec
import proofs.«112459_j14259291423428_1_alg».proof.Proof.KernelValue
import proofs.«112459_j14259291423428_1_alg».proof.Proof.KernelRun
import proofs.«112459_j14259291423428_1_alg».proof.Proof.Reference
import Idealize.ShloMosaic.Adequacy
import Idealize.ShloMosaic.Init

noncomputable section

namespace Cert.Proof

open Idealize.ShloMosaic Idealize.SL.Sem

/-- The kernel as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is three host operations: it runs, and its run's post holds the arguments unchanged. -/
theorem frame_referenceIdeal : Cert.frame_ReferenceIdeal := fun m ρ _ =>
  (θ_run Cert.ReferenceIdeal.defs _ _).mono (fun _ h c => (h c).2) (Cert.ReferenceIdeal.MaxValue.run (F := Ideal) m ρ)

/-- Both programs end with the entrywise maximum of the four arguments, grouped alike; the arguments agree, so the
    results are one array. -/
theorem algebraic : Cert.algebraic_KernelIdeal_ReferenceIdeal := by
  intro m ρ m' ρ' _ hagree
  refine ⟨fun c => Cert.KernelIdeal.MaxValue.result (F := Ideal) m c, Cert.KernelIdeal.MaxValue.run (F := Ideal) m ρ, ?_⟩
  refine (θ_run Cert.ReferenceIdeal.defs _ _).mono (fun _ h c => ⟨(h c).1.trans ?_, (h c).2⟩)
    (Cert.ReferenceIdeal.MaxValue.run (F := Ideal) m' ρ')
  unfold Cert.ReferenceIdeal.MaxValue.result Cert.KernelIdeal.MaxValue.result
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
